-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S131072x32 : Shape := ⟨2, ![131072, 32]⟩
abbrev S131072x1 : Shape := ⟨2, ![131072, 1]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S131072x1 : S_.BroadcastsInDim S131072x1 (![] : Fin 0 → Fin S131072x1.rank)
  reducesTo_S131072x1_S_d0_1 : S131072x1.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : IVec S131072x32 32) (main_arg2 : FVec F S131072x1 .f32) (main_arg3 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S131072x1 .f32 := Host.absf main_arg2
  let main_cst_0 : FVec F S_ .f32 := constant S_ .f32 0x7F800000#32
  let main_v5 : FVec F S131072x1 .f32 := broadcastInDim S131072x1 ![] bcast_S_S131072x1 main_cst_0
  let main_v6 : IVec S131072x1 1 := cmpf .olt main_v4 main_v5
  let main_c_1 : IVec S_ 1 := constantI S_ 1 1#1
  let main_v7 : IVec S_ 1 := (fun x v => Host.reduce IntOp.andi x v reducesTo_S131072x1_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S131072x32 : Shape := ⟨2, ![131072, 32]⟩
abbrev S131072x1 : Shape := ⟨2, ![131072, 1]⟩
abbrev S4096 : Shape := ⟨1, ![4096]⟩
abbrev S131072x128 : Shape := ⟨2, ![131072, 128]⟩
abbrev S128x32 : Shape := ⟨2, ![128, 32]⟩
abbrev S128x1 : Shape := ⟨2, ![128, 1]⟩
abbrev S128x128 : Shape := ⟨2, ![128, 128]⟩
abbrev S128x32x1 : Shape := ⟨3, ![128, 32, 1]⟩
abbrev S128x32x4 : Shape := ⟨3, ![128, 32, 4]⟩
abbrev S4096x4096 : Shape := ⟨2, ![4096, 4096]⟩
abbrev S16384x4096 : Shape := ⟨2, ![16384, 4096]⟩
abbrev S1x4096 : Shape := ⟨2, ![1, 4096]⟩
abbrev S256x4096 : Shape := ⟨2, ![256, 4096]⟩
abbrev S1024x4096 : Shape := ⟨2, ![1024, 4096]⟩
abbrev S1x1024 : Shape := ⟨2, ![1, 1024]⟩
abbrev S256x1024 : Shape := ⟨2, ![256, 1024]⟩

abbrev nBuf : Space → Nat
  | .hbm => 10
  | .vmem => 14
  | .smem => 0
  | _ => 0

abbrev bufTy : (tb : Table) → Fin (tcTables nBuf tb) → BufTy
  | .hbm, ⟨0, _⟩ => ⟨S8x2048x4096, .f32⟩
  | .hbm, ⟨1, _⟩ => ⟨S131072x32, .i32⟩
  | .hbm, ⟨2, _⟩ => ⟨S131072x1, .f32⟩
  | .hbm, ⟨3, _⟩ => ⟨S4096, .f32⟩
  | .hbm, ⟨4, _⟩ => ⟨S131072x128, .bf16⟩
  | .hbm, ⟨5, _⟩ => ⟨S4096x4096, .bf16⟩
  | .hbm, ⟨6, _⟩ => ⟨S16384x4096, .f32⟩
  | .hbm, ⟨7, _⟩ => ⟨S1x4096, .f32⟩
  | .hbm, ⟨8, _⟩ => ⟨S16384x4096, .f32⟩
  | .hbm, ⟨9, _⟩ => ⟨S8x2048x4096, .f32⟩
  | .local _ .vmem, ⟨0, _⟩ => ⟨S128x32, .i32⟩
  | .local _ .vmem, ⟨1, _⟩ => ⟨S128x32, .i32⟩
  | .local _ .vmem, ⟨2, _⟩ => ⟨S128x1, .f32⟩
  | .local _ .vmem, ⟨3, _⟩ => ⟨S128x1, .f32⟩
  | .local _ .vmem, ⟨4, _⟩ => ⟨S128x128, .bf16⟩
  | .local _ .vmem, ⟨5, _⟩ => ⟨S128x128, .bf16⟩
  | .local _ .vmem, ⟨6, _⟩ => ⟨S256x4096, .f32⟩
  | .local _ .vmem, ⟨7, _⟩ => ⟨S256x4096, .f32⟩
  | .local _ .vmem, ⟨8, _⟩ => ⟨S1024x4096, .bf16⟩
  | .local _ .vmem, ⟨9, _⟩ => ⟨S1024x4096, .bf16⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![64, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S128x32_S128x32_0_0 : ∀ a, (![0, 0] : Fin 2 → Nat) a + S128x32.size a ≤ S128x32.size a
  h_S128x32 : 0 < S128x32.numel
  shapeCasts_S128x32_S128x32x1 : S128x32.ShapeCasts S128x32x1
  concatenates_S128x32x1_S128x32x1_S128x32x1_S128x32x1_S128x32x4_d2 : Shape.Concatenates [S128x32x1, S128x32x1, S128x32x1, S128x32x1] S128x32x4 2
  shapeCasts_S128x32x4_S128x128 : S128x32x4.ShapeCasts S128x128
  inb_S128x1_S128x1_0_0 : ∀ a, (![0, 0] : Fin 2 → Nat) a + S128x1.size a ≤ S128x1.size a
  h_S128x1 : 0 < S128x1.numel
  broadcasts_S128x1_S128x128 : S128x1.Broadcasts S128x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S128x128_S128x128_0_0 : (Rect.unit (s := S128x128) ![0, 0] S128x128.size inb_S128x128_S128x128_0_0).PackedRows (EltTy.packing .bf16)
  shapeCasts_S131072x128_S4096x4096 : S131072x128.ShapeCasts S4096x4096
  shapeCasts_S8x2048x4096_S16384x4096 : S8x2048x4096.ShapeCasts S16384x4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  shapeCasts_S16384x4096_S8x2048x4096 : S16384x4096.ShapeCasts S8x2048x4096
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32.size a ≤ S131072x32.size a
  hwx0_0 : ∀ i : grid0.Coords, EltTy.bits .i32 = 32 ∨ (Rect.block (s := S131072x32) S128x32.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S131072x1.size a
  hwx0_1 : ∀ i : grid0.Coords, EltTy.bits .f32 = 32 ∨ (Rect.block (s := S131072x1) S128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S131072x128.size a
  hwx0_2 : ∀ i : grid0.Coords, EltTy.bits .bf16 = 32 ∨ (Rect.block (s := S131072x128) S128x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S16384x4096.size a
  hwx1_0 : ∀ i : grid1.Coords, EltTy.bits .f32 = 32 ∨ (Rect.block (s := S16384x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S4096x4096.size a
  hwx1_1 : ∀ i : grid1.Coords, EltTy.bits .bf16 = 32 ∨ (Rect.block (s := S4096x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S16384x4096.size a
  hwx1_3 : ∀ i : grid1.Coords, EltTy.bits .f32 = 32 ∨ (Rect.block (s := S16384x4096) S256x1024.size (cc1_transform_3 i) (hinb1_3 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_arg1) S128x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x4096 : Shape := ⟨3, ![8, 2048, 4096]⟩
abbrev S131072x32 : Shape := ⟨2, ![131072, 32]⟩
abbrev S131072x1 : Shape := ⟨2, ![131072, 1]⟩
abbrev S4096 : Shape := ⟨1, ![4096]⟩
abbrev S_ : Shape := ⟨0, ![]⟩
abbrev S131072x32x1 : Shape := ⟨3, ![131072, 32, 1]⟩
abbrev S131072x32x4 : Shape := ⟨3, ![131072, 32, 4]⟩
abbrev S131072x128 : Shape := ⟨2, ![131072, 128]⟩
abbrev S4096x4096 : Shape := ⟨2, ![4096, 4096]⟩
abbrev S1x1x4096 : Shape := ⟨3, ![1, 1, 4096]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S131072x32, .i32⟩
  | .hbm, ⟨2, _⟩ => ⟨S131072x1, .f32⟩
  | .hbm, ⟨3, _⟩ => ⟨S4096, .f32⟩
  | .hbm, ⟨4, _⟩ => ⟨S_, .i32⟩
  | .hbm, ⟨5, _⟩ => ⟨S131072x32, .i32⟩
  | .hbm, ⟨6, _⟩ => ⟨S131072x32, .i32⟩
  | .hbm, ⟨7, _⟩ => ⟨S_, .i32⟩
  | .hbm, ⟨8, _⟩ => ⟨S131072x32, .i32⟩
  | .hbm, ⟨9, _⟩ => ⟨S131072x32, .i32⟩
  | .hbm, ⟨10, _⟩ => ⟨S_, .i32⟩
  | .hbm, ⟨11, _⟩ => ⟨S131072x32, .i32⟩
  | .hbm, ⟨12, _⟩ => ⟨S131072x32, .i32⟩
  | .hbm, ⟨13, _⟩ => ⟨S_, .i32⟩
  | .hbm, ⟨14, _⟩ => ⟨S131072x32, .i32⟩
  | .hbm, ⟨15, _⟩ => ⟨S131072x32, .i32⟩
  | .hbm, ⟨16, _⟩ => ⟨S_, .i32⟩
  | .hbm, ⟨17, _⟩ => ⟨S131072x32, .i32⟩
  | .hbm, ⟨18, _⟩ => ⟨S131072x32, .i32⟩
  | .hbm, ⟨19, _⟩ => ⟨S_, .i32⟩
  | .hbm, ⟨20, _⟩ => ⟨S131072x32, .i32⟩
  | .hbm, ⟨21, _⟩ => ⟨S131072x32, .i32⟩
  | .hbm, ⟨22, _⟩ => ⟨S_, .i32⟩
  | .hbm, ⟨23, _⟩ => ⟨S131072x32, .i32⟩
  | .hbm, ⟨24, _⟩ => ⟨S131072x32, .i32⟩
  | .hbm, ⟨25, _⟩ => ⟨S_, .i32⟩
  | .hbm, ⟨26, _⟩ => ⟨S131072x32, .i32⟩
  | .hbm, ⟨27, _⟩ => ⟨S131072x32, .i32⟩
  | .hbm, ⟨28, _⟩ => ⟨S131072x32x1, .i32⟩
  | .hbm, ⟨29, _⟩ => ⟨S131072x32x1, .i32⟩
  | .hbm, ⟨30, _⟩ => ⟨S131072x32x1, .i32⟩
  | .hbm, ⟨31, _⟩ => ⟨S131072x32x1, .i32⟩
  | .hbm, ⟨32, _⟩ => ⟨S131072x32x4, .i32⟩
  | .hbm, ⟨33, _⟩ => ⟨S131072x128, .i32⟩
  | .hbm, ⟨34, _⟩ => ⟨S131072x128, .f32⟩
  | .hbm, ⟨35, _⟩ => ⟨S_, .f32⟩
  | .hbm, ⟨36, _⟩ => ⟨S131072x128, .f32⟩
  | .hbm, ⟨37, _⟩ => ⟨S131072x128, .f32⟩
  | .hbm, ⟨38, _⟩ => ⟨S131072x128, .f32⟩
  | .hbm, ⟨39, _⟩ => ⟨S131072x128, .f32⟩
  | .hbm, ⟨40, _⟩ => ⟨S131072x128, .f32⟩
  | .hbm, ⟨41, _⟩ => ⟨S131072x128, .f32⟩
  | .hbm, ⟨42, _⟩ => ⟨S4096x4096, .f32⟩
  | .hbm, ⟨43, _⟩ => ⟨S8x2048x4096, .f32⟩
  | .hbm, ⟨44, _⟩ => ⟨S1x1x4096, .f32⟩
  | .hbm, ⟨45, _⟩ => ⟨S8x2048x4096, .f32⟩
  | .hbm, ⟨46, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_v11 : Ref sig .tc := ⟨.hbm, 21, rfl⟩
abbrev main_c_5 : Ref sig .tc := ⟨.hbm, 22, rfl⟩
abbrev main_v12 : Ref sig .tc := ⟨.hbm, 23, rfl⟩
abbrev main_v13 : Ref sig .tc := ⟨.hbm, 24, rfl⟩
abbrev main_c_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  bcast_S_S131072x32 : S_.BroadcastsInDim S131072x32 (![] : Fin 0 → Fin S131072x32.rank)
  bcast_S131072x32_S131072x32x1_0_1 : S131072x32.BroadcastsInDim S131072x32x1 (![0, 1] : Fin 2 → Fin S131072x32x1.rank)
  concatenates_S131072x32x1_S131072x32x1_S131072x32x1_S131072x32x1_S131072x32x4_d2 : Shape.Concatenates [S131072x32x1, S131072x32x1, S131072x32x1, S131072x32x1] S131072x32x4 2
  shapeCasts_S131072x32x4_S131072x128 : S131072x32x4.ShapeCasts S131072x128
  bcast_S_S131072x128 : S_.BroadcastsInDim S131072x128 (![] : Fin 0 → Fin S131072x128.rank)
  bcast_S131072x1_S131072x128_0_1 : S131072x1.BroadcastsInDim S131072x128 (![0, 1] : Fin 2 → Fin S131072x128.rank)
  shapeCasts_S131072x128_S4096x4096 : S131072x128.ShapeCasts S4096x4096
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.Spec.lean ====
/-
  The mathematics of the certificate, with no program in sight.

  A packed word `q` holds four 2-bit fields; field `k` is `(q >>ₛ 2k) & 3`.  Group `g` of the weight array has 128
  entries: entry `j` is field `j % 4` of word `j / 4` of row `g`, read as a signed integer `u`, and dequantised with the
  group's scale `n` as `u · c · n − n`, `c` the f32 nearest 2/3 (the same word on both sides, never evaluated).
  The 131072 × 128 weight array is then read row-major as a 4096 × 4096 matrix `w`, and the result is
  `y[b, s, o] = Σₖ x[b, s, k] · w[o, k] + bias[o]` on the extended reals.
-/
import Idealize.ShloMosaic.PureOps.Ideal
import Idealize.ShloMosaic.Lib.ValueIdx

noncomputable section

open scoped BigOperators

namespace Cert.Spec

open Idealize.ShloMosaic Idealize.ShloMosaic.ValueIdx

/-- At 32 bits the host's arithmetic right shift is the vector unit's. -/
theorem shrsi_host (x y : BitVec 32) : IntOp.shrsi .host x y = IntOp.shrsi .vector x y := by
  simp [IntOp.shrsi, IntOp.cornerWord]

/-- An arithmetic right shift by zero is the identity. -/
theorem shrsi_host_zero (x : BitVec 32) : IntOp.shrsi .host x 0#32 = x := by
  simp [IntOp.shrsi, BitVec.sshiftRight']

/-- Field `k` of a packed word: `(q >>ₛ 2k) & 3`, the shift left out for `k = 0`. -/
def field (q : BitVec 32) : Fin 4 → BitVec 32
  | ⟨0, _⟩ => IntOp.andi q 3#32
  | ⟨1, _⟩ => IntOp.andi (IntOp.shrsi .vector q 2#32) 3#32
  | ⟨2, _⟩ => IntOp.andi (IntOp.shrsi .vector q 4#32) 3#32
  | ⟨3, _⟩ => IntOp.andi (IntOp.shrsi .vector q 6#32) 3#32

/-- The dequantised weight of a field `u` under the group scale `n`: `u · c · n − n`. -/
def deq (u : BitVec 32) (n : Ideal .f32) : Ideal .f32 :=
  FloatOps.subf (FloatOps.mulf (FloatOps.mulf (FloatOps.sitofp .f32 u) (FloatOps.ofBits .f32 0x3F2AAAAB#32)) n) n

/-- The word of row `g` that holds entry `j` of the group: word `j / 4`. -/
abbrev wordIdx {R : Nat} (j : (⟨2, ![R, 128]⟩ : Shape).Idx) : (⟨2, ![R, 32]⟩ : Shape).Idx := fun a => match a with
  | ⟨0, _⟩ => ⟨(j 0).val, (j 0).isLt⟩
  | ⟨1, _⟩ => ⟨(j 1).val / 4, by have h : (j 1).val < 128 := (j 1).isLt; show (j 1).val / 4 < 32; omega⟩

/-- Which field of that word: `j % 4`. -/
abbrev fieldIdx {R : Nat} (j : (⟨2, ![R, 128]⟩ : Shape).Idx) : Fin 4 := ⟨(j 1).val % 4, Nat.mod_lt _ (by decide)⟩

/-- The scale of row `g`. -/
abbrev scaleIdx {R : Nat} (j : (⟨2, ![R, 128]⟩ : Shape).Idx) : (⟨2, ![R, 1]⟩ : Shape).Idx := fun a => match a with
  | ⟨0, _⟩ => ⟨(j 0).val, (j 0).isLt⟩
  | ⟨1, _⟩ => ⟨0, Nat.zero_lt_one⟩

/-- The dequantised weights of `R` groups, entry by entry. -/
def weights {R : Nat} (q : (⟨2, ![R, 32]⟩ : Shape).Idx → BitVec 32) (n : (⟨2, ![R, 1]⟩ : Shape).Idx → Ideal .f32) :
    (⟨2, ![R, 128]⟩ : Shape).Idx → Ideal .f32 :=
  fun j => deq (field (q (wordIdx j)) (fieldIdx j)) (n (scaleIdx j))

/-- Entry `(o, k)` of the 4096 × 4096 matrix is entry `o · 4096 + k` of the weight array read row-major. -/
abbrev matIdx (o k : Fin 4096) : (⟨2, ![131072, 128]⟩ : Shape).Idx := fun a => match a with
  | ⟨0, _⟩ => ⟨(o.val * 4096 + k.val) / 128, by have := o.isLt; have := k.isLt; show (o.val * 4096 + k.val) / 128 < 131072; omega⟩
  | ⟨1, _⟩ => ⟨(o.val * 4096 + k.val) % 128, Nat.mod_lt _ (by decide)⟩

/-- The result: `y[b, s, o] = Σₖ x[b, s, k] · w[o, k] + bias[o]`. -/
def result (x : (⟨3, ![8, 2048, 4096]⟩ : Shape).Idx → Ideal .f32) (q : (⟨2, ![131072, 32]⟩ : Shape).Idx → BitVec 32)
    (n : (⟨2, ![131072, 1]⟩ : Shape).Idx → Ideal .f32) (b : (⟨1, ![4096]⟩ : Shape).Idx → Ideal .f32) :
    (⟨3, ![8, 2048, 4096]⟩ : Shape).Idx → Ideal .f32 :=
  fun i => (∑ k : Fin 4096, x (ix3 ⟨(i 0).val, (i 0).isLt⟩ ⟨(i 1).val, (i 1).isLt⟩ k) * weights q n (matIdx ⟨(i 2).val, (i 2).isLt⟩ k))
    + b (ix1 ⟨(i 2).val, (i 2).isLt⟩)

end Cert.Spec

end
-- ==== Proof.Unpack.lean ====
/-
  Four arrays of `R × 32` words, each given a trailing unit axis, joined along that axis into `R × 32 × 4` and read
  row-major as `R × 128`: entry `(r, j)` of the result is array `j % 4` at `(r, j / 4)`.  (Row-major position
  `(r · 32 + j / 4) · 4 + j % 4 = r · 128 + j`.)  This is how both programs interleave the four 2-bit fields of a word.
-/
import Idealize.ShloMosaic.Lib.Pipeline.Value
import Idealize.ShloMosaic.Lib.ValueIdx
import proofs.«419232_j30691836297883_2_alg».proof.Proof.Spec

noncomputable section

namespace Cert.Spec

open Idealize.ShloMosaic Idealize.ShloMosaic.ValueIdx

variable {α : Type} {R : Nat}

/-- Entry `(r, j)` of the flat array sits at `(r, j / 4, j % 4)` of the joined one. -/
abbrev joinedIdx (y : (⟨2, ![R, 128]⟩ : Shape).Idx) : (⟨3, ![R, 32, 4]⟩ : Shape).Idx := fun a => match a with
  | ⟨0, _⟩ => ⟨(y 0).val, (y 0).isLt⟩
  | ⟨1, _⟩ => ⟨(y 1).val / 4, by have h : (y 1).val < 128 := (y 1).isLt; show (y 1).val / 4 < 32; omega⟩
  | ⟨2, _⟩ => ⟨(y 1).val % 4, Nat.mod_lt _ (by decide)⟩

/-- and at `(r, j / 4, 0)` of the piece it comes from. -/
abbrev pieceIdx (y : (⟨2, ![R, 128]⟩ : Shape).Idx) : (⟨3, ![R, 32, 1]⟩ : Shape).Idx := fun a => match a with
  | ⟨0, _⟩ => ⟨(y 0).val, (y 0).isLt⟩
  | ⟨1, _⟩ => ⟨(y 1).val / 4, by have h : (y 1).val < 128 := (y 1).isLt; show (y 1).val / 4 < 32; omega⟩
  | ⟨2, _⟩ => ⟨0, Nat.zero_lt_one⟩

/-- The join of four unit pieces read at an index whose last coordinate is `k`: piece `k`. -/
theorem join4_apply (a : Fin 4 → (⟨3, ![R, 32, 1]⟩ : Shape).Idx → α)
    (hc : Shape.Concatenates (([⟨⟨3, ![R, 32, 1]⟩, a 0⟩, ⟨⟨3, ![R, 32, 1]⟩, a 1⟩, ⟨⟨3, ![R, 32, 1]⟩, a 2⟩, ⟨⟨3, ![R, 32, 1]⟩, a 3⟩] :
      List ((s : Shape) × (s.Idx → α))).map (·.1)) ⟨3, ![R, 32, 4]⟩ 2)
    (y : (⟨2, ![R, 128]⟩ : Shape).Idx) :
    concatenate ⟨3, ![R, 32, 4]⟩ 2 [⟨⟨3, ![R, 32, 1]⟩, a 0⟩, ⟨⟨3, ![R, 32, 1]⟩, a 1⟩, ⟨⟨3, ![R, 32, 1]⟩, a 2⟩, ⟨⟨3, ![R, 32, 1]⟩, a 3⟩] hc (joinedIdx y)
      = a (fieldIdx y) (pieceIdx y) := by
  have hoff : ∀ b : Fin 3, b.cast rfl ≠ (2 : Fin 3) → ((pieceIdx y) b).val = ((joinedIdx y) (b.cast rfl)).val := fun b =>
    match b with
    | ⟨0, _⟩ => fun _ => rfl
    | ⟨1, _⟩ => fun _ => rfl
    | ⟨2, _⟩ => fun hb => absurd rfl hb
  have key : ∀ k : Fin 4, (y 1).val % 4 = k.val →
      concatenate ⟨3, ![R, 32, 4]⟩ 2 [⟨⟨3, ![R, 32, 1]⟩, a 0⟩, ⟨⟨3, ![R, 32, 1]⟩, a 1⟩, ⟨⟨3, ![R, 32, 1]⟩, a 2⟩, ⟨⟨3, ![R, 32, 1]⟩, a 3⟩] hc (joinedIdx y)
        = a k (pieceIdx y) := by
    intro k hkv
    match k, hkv with
    | ⟨0, _⟩, hkv =>
      have h0 : (y 1).val % 4 = 0 := hkv
      exact concatenate_apply_piece 2 _ hc (joinedIdx y) 0 (show (0 : Nat) < 4 by decide) _ (a 0) rfl rfl 0 rfl (pieceIdx y) hoff
        (by show 0 + 0 = (y 1).val % 4; omega)
    | ⟨1, _⟩, hkv =>
      have h0 : (y 1).val % 4 = 1 := hkv
      exact concatenate_apply_piece 2 _ hc (joinedIdx y) 1 (show (1 : Nat) < 4 by decide) _ (a 1) rfl rfl 1 rfl (pieceIdx y) hoff
        (by show 1 + 0 = (y 1).val % 4; omega)
    | ⟨2, _⟩, hkv =>
      have h0 : (y 1).val % 4 = 2 := hkv
      exact concatenate_apply_piece 2 _ hc (joinedIdx y) 2 (show (2 : Nat) < 4 by decide) _ (a 2) rfl rfl 2 rfl (pieceIdx y) hoff
        (by show 2 + 0 = (y 1).val % 4; omega)
    | ⟨3, _⟩, hkv =>
      have h0 : (y 1).val % 4 = 3 := hkv
      exact concatenate_apply_piece 2 _ hc (joinedIdx y) 3 (show (3 : Nat) < 4 by decide) _ (a 3) rfl rfl 3 rfl (pieceIdx y) hoff
        (by show 3 + 0 = (y 1).val % 4; omega)
  exact key (fieldIdx y) rfl

/-- THE UNPACKING: if piece `k` is the array `f k` with a unit axis appended, the flattened join at `(r, j)` is
    `f (j % 4)` at `(r, j / 4)`. -/
theorem unpack_apply (f : Fin 4 → (⟨2, ![R, 32]⟩ : Shape).Idx → α) (a : Fin 4 → (⟨3, ![R, 32, 1]⟩ : Shape).Idx → α)
    (ha : ∀ (k : Fin 4) (y : (⟨2, ![R, 128]⟩ : Shape).Idx), a k (pieceIdx y) = f k (wordIdx y))
    (hc : Shape.Concatenates (([⟨⟨3, ![R, 32, 1]⟩, a 0⟩, ⟨⟨3, ![R, 32, 1]⟩, a 1⟩, ⟨⟨3, ![R, 32, 1]⟩, a 2⟩, ⟨⟨3, ![R, 32, 1]⟩, a 3⟩] :
      List ((s : Shape) × (s.Idx → α))).map (·.1)) ⟨3, ![R, 32, 4]⟩ 2)
    (hs : (⟨3, ![R, 32, 4]⟩ : Shape).ShapeCasts ⟨2, ![R, 128]⟩) (y : (⟨2, ![R, 128]⟩ : Shape).Idx) :
    shapeCast ⟨2, ![R, 128]⟩ (concatenate ⟨3, ![R, 32, 4]⟩ 2
        [⟨⟨3, ![R, 32, 1]⟩, a 0⟩, ⟨⟨3, ![R, 32, 1]⟩, a 1⟩, ⟨⟨3, ![R, 32, 1]⟩, a 2⟩, ⟨⟨3, ![R, 32, 1]⟩, a 3⟩] hc) hs y
      = f (fieldIdx y) (wordIdx y) := by
  refine (shapeCast_apply _ hs y (joinedIdx y) ?_).trans ((join4_apply a hc y).trans (ha _ y))
  rw [Shape.rowMajor_val_three, Shape.rowMajor_val_two]
  have h1 : (y 1).val < 128 := (y 1).isLt
  show ((y 0).val * 32 + (y 1).val / 4) * 4 + (y 1).val % 4 = (y 0).val * 128 + (y 1).val
  omega

end Cert.Spec

end
-- ==== Proof.Dequant.lean ====
/-
  What the first kernel's body stores, entry by entry: the block of 128 groups it loads, unpacked and dequantised.
  Entry `(r, j)` of the stored 128 × 128 block is field `j % 4` of word `(r, j / 4)` of the loaded words, as a signed
  integer, times `c`, times the scale of row `r`, minus that scale — `Cert.Spec.weights` of the two loaded blocks.
  (The final narrowing of the format is the identity on the extended reals.)
-/
import proofs.«419232_j30691836297883_2_alg».proof.Proof.Gen.KernelIdeal.Skeleton
import proofs.«419232_j30691836297883_2_alg».proof.Proof.Unpack

noncomputable section

namespace Cert.KernelIdeal.Dequant

open Cert.KernelIdeal Cert.KernelIdeal.Gen Cert.Spec
open Idealize.ShloMosaic Idealize.ShloMosaic.ValueIdx

/-- The four field arrays the body computes from the loaded words. -/
abbrev fieldArr (x0 : IVec S128x32 32) : Fin 4 → IVec S128x32 32
  | ⟨0, _⟩ => andi x0 (broadcast S128x32 3#32)
  | ⟨1, _⟩ => andi (shrsi x0 (broadcast S128x32 2#32)) (broadcast S128x32 3#32)
  | ⟨2, _⟩ => andi (shrsi x0 (broadcast S128x32 4#32)) (broadcast S128x32 3#32)
  | ⟨3, _⟩ => andi (shrsi x0 (broadcast S128x32 6#32)) (broadcast S128x32 3#32)

/-- Each is the corresponding field of every word. -/
theorem fieldArr_apply (x0 : IVec S128x32 32) (k : Fin 4) (w : S128x32.Idx) : fieldArr x0 k w = field (x0 w) k := by
  match k with
  | ⟨0, _⟩ => rfl
  | ⟨1, _⟩ => rfl
  | ⟨2, _⟩ => rfl
  | ⟨3, _⟩ => rfl

/-- A 128 × 32 array given a trailing unit axis, read at `(r, j / 4, 0)`. -/
theorem addUnit_apply {α : Type} (v : S128x32.Idx → α) (y : S128x128.Idx) :
    shapeCast S128x32x1 v shapeCasts_S128x32_S128x32x1 (pieceIdx y) = v (wordIdx y) := by
  refine shapeCast_apply v _ (pieceIdx y) (wordIdx y) ?_
  rw [Shape.rowMajor_val_two, Shape.rowMajor_val_three]
  show (y 0).val * 32 + (y 1).val / 4 = ((y 0).val * 32 + (y 1).val / 4) * 1 + 0
  omega

/-- The unpacked integers at an entry: field `j % 4` of word `(r, j / 4)`. -/
theorem unpacked_apply (x0 : IVec S128x32 32) (y : S128x128.Idx) :
    shapeCast S128x128 (concatenate S128x32x4 2
      [⟨S128x32x1, shapeCast S128x32x1 (fieldArr x0 0) shapeCasts_S128x32_S128x32x1⟩,
       ⟨S128x32x1, shapeCast S128x32x1 (fieldArr x0 1) shapeCasts_S128x32_S128x32x1⟩,
       ⟨S128x32x1, shapeCast S128x32x1 (fieldArr x0 2) shapeCasts_S128x32_S128x32x1⟩,
       ⟨S128x32x1, shapeCast S128x32x1 (fieldArr x0 3) shapeCasts_S128x32_S128x32x1⟩]
      concatenates_S128x32x1_S128x32x1_S128x32x1_S128x32x1_S128x32x4_d2) shapeCasts_S128x32x4_S128x128 y
      = field (x0 (wordIdx y)) (fieldIdx y) :=
  (unpack_apply (R := 128) (fieldArr x0) (fun k => shapeCast S128x32x1 (fieldArr x0 k) shapeCasts_S128x32_S128x32x1)
    (fun k y => addUnit_apply (fieldArr x0 k) y) _ _ y).trans (fieldArr_apply x0 _ _)

/-- The row's scale broadcast along the row, read at an entry. -/
theorem scale_apply (x1 : Vec Ideal S128x1 .f32) (y : S128x128.Idx) :
    broadcastTo S128x128 x1 broadcasts_S128x1_S128x128 y = x1 (scaleIdx y) := by
  refine broadcastTo_apply x1 _ y (scaleIdx y) fun a => ?_
  match a with
  | ⟨0, _⟩ => show (y 0).val = if (128 : Nat) = 1 then 0 else (y 0).val; rw [if_neg (by decide)]
  | ⟨1, _⟩ => show (0 : Nat) = if (1 : Nat) = 1 then 0 else (y 1).val; rw [if_pos rfl]

/-- THE STORED BLOCK: the dequantised weights of the loaded groups. -/
theorem pay_apply (x0 : Vec Ideal S128x32 .i32) (x1 : Vec Ideal S128x1 .f32) (y : S128x128.Idx) :
    k0_pay1 (F := Ideal) x0 x1 y = weights (R := 128) x0 x1 y := by
  unfold k0_pay1 weights deq
  show FloatOps.subf (F := Ideal) (φ := .f32) (FloatOps.mulf (F := Ideal) (FloatOps.mulf (F := Ideal) (FloatOps.sitofp (F := Ideal) .f32 (shapeCast S128x128 _ shapeCasts_S128x32x4_S128x128 y)) _) (broadcastTo S128x128 x1 broadcasts_S128x1_S128x128 y))
      (broadcastTo S128x128 x1 broadcasts_S128x1_S128x128 y) = _
  rw [scale_apply, unpacked_apply x0 y]
  rfl

end Cert.KernelIdeal.Dequant

end
-- ==== Proof.DequantArray.lean ====
/-
  The first kernel's output array after its 1024 grid points.  Point `t` loads groups `128 t … 128 t + 127` (their
  packed words and their scales) and writes back rows `128 t … 128 t + 127` of the output; what it writes is the
  dequantised weights of those groups, so the block is the restriction of ONE whole-array function, `Cert.Spec.weights`
  of the packed words and scales as the kernel finds them.  Row `g` lies in the block of point `g / 128`, so the blocks
  cover the array and it ends holding that function.
-/
import proofs.«419232_j30691836297883_2_alg».proof.Proof.Gen.KernelIdeal.Frame
import proofs.«419232_j30691836297883_2_alg».proof.Proof.Dequant
import Idealize.ShloMosaic.Lib.Pipeline.Value

set_option maxRecDepth 16384

noncomputable section

namespace Cert.KernelIdeal.DequantArray

open Cert.KernelIdeal Cert.KernelIdeal.Gen Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: every window's block index is `(t, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The array of dequantised weights the region computes from its entry contents. -/
abbrev wArr (c : Dev nD) : S131072x128.Idx → Elt Ideal .bf16 :=
  weights (R := 131072) (V c main_arg1) (V c main_arg2)

/-- WHAT POINT `t` WRITES BACK is block `t` of the dequantised weights. -/
theorem flushed_eq (c : Dev nD) (t : Fin cfg0.N) :
    (dat0 V c).flushed 2 t = ((cfg0.win 2).blk t).view.read (Elt Ideal) (wArr V c) := by
  show (cfg0.win 2).cut (grid0.coords t) ((dat0 V c).after 2 t) = _
  rw [after0_2]
  unfold out0_2
  rw [View.canon_unit_zero hz]
  simp only [View.ld_unit_zero (S := S128x32) hz, View.ld_unit_zero (S := S128x1) hz]
  obtain ⟨e00, e01, e10, e11, e20, e21⟩ := idx_facts t
  funext y
  show k0_pay1 (F := Ideal) (iblk0 V c 0 t) (iblk0 V c 1 t) y = weights (R := 131072) (V c main_arg1) (V c main_arg2) (((cfg0.win 2).blk t).view.emb y)
  refine (Dequant.pay_apply (iblk0 V c 0 t) (iblk0 V c 1 t) y).trans ?_
  have h0 : (y 0).val < 128 := (y 0).isLt
  have h1 : (y 1).val < 128 := (y 1).isLt
  have hw : (iblk0 V c 0 t : Vec Ideal S128x32 .i32) (wordIdx y) = V c main_arg1 (wordIdx (((cfg0.win 2).blk t).view.emb y)) := by
    show V c main_arg1 (((cfg0.win 0).blk t).view.emb (wordIdx y)) = V c main_arg1 (wordIdx (((cfg0.win 2).blk t).view.emb y))
    refine congrArg (V c main_arg1) (funext fun a => Fin.ext ?_)
    match a with
    | ⟨0, _⟩ => show win0_0.index t (0 : Fin 2) * 128 + 1 * (y 0).val = win0_2.index t (0 : Fin 2) * 128 + 1 * (y 0).val; omega
    | ⟨1, _⟩ => show win0_0.index t (1 : Fin 2) * 32 + 1 * ((y 1).val / 4) = (win0_2.index t (1 : Fin 2) * 128 + 1 * (y 1).val) / 4; omega
  have hs : (iblk0 V c 1 t : Vec Ideal S128x1 .f32) (scaleIdx y) = V c main_arg2 (scaleIdx (((cfg0.win 2).blk t).view.emb y)) := by
    show V c main_arg2 (((cfg0.win 1).blk t).view.emb (scaleIdx y)) = V c main_arg2 (scaleIdx (((cfg0.win 2).blk t).view.emb y))
    refine congrArg (V c main_arg2) (funext fun a => Fin.ext ?_)
    match a with
    | ⟨0, _⟩ => show win0_1.index t (0 : Fin 2) * 128 + 1 * (y 0).val = win0_2.index t (0 : Fin 2) * 128 + 1 * (y 0).val; omega
    | ⟨1, _⟩ => show win0_1.index t (1 : Fin 2) * 1 + 1 * 0 = 0; omega
  have hf : fieldIdx y = fieldIdx (((cfg0.win 2).blk t).view.emb y) := Fin.ext (by
    show (y 1).val % 4 = (win0_2.index t (1 : Fin 2) * 128 + 1 * (y 1).val) % 4; omega)
  unfold weights
  rw [hw, hs, hf]

/-- An index of the array is in point `t`'s block iff each coordinate is in the block's range on its axis. -/
theorem mem_blk (t : Fin cfg0.N) (i : S131072x128.Idx) :
    i ∈ ((cfg0.win 2).blk t).view.set ↔ ∀ a : Fin 2, win0_2.index t a * S128x128.size a ≤ (i a).val ∧ (i a).val < win0_2.index t a * S128x128.size a + S128x128.size a := by
  show i ∈ ((View.whole main_v0).slice (win0_2.rect t)).set ↔ _
  rw [View.set_slice_whole, Rect.mem_set_unit]
  exact Iff.rfl

/-- Every row is in the block of the point its group of 128 names. -/
theorem cover (i : S131072x128.Idx) : ∃ t : Fin cfg0.N, (cfg0.win 2).flush t = true ∧ i ∈ ((cfg0.win 2).blk t).view.set := by
  have h0 : (i 0).val < 131072 := (i 0).isLt
  have h1 : (i 1).val < 128 := (i 1).isLt
  have hN : cfg0.N = 1024 := N_0
  let t : Fin cfg0.N := ⟨(i 0).val / 128, by rw [hN]; omega⟩
  obtain ⟨-, -, -, -, e20, e21⟩ := idx_facts t
  have ht : t.val = (i 0).val / 128 := rfl
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 128 ≤ (i 1).val ∧ (i 1).val < win0_2.index t (1 : Fin 2) * 128 + 128; omega

/-- THE ARRAY after the region: the dequantised weights of the packed words and scales it was entered with. -/
theorem final (c : Dev nD) : (dat0 V c).arrAt 2 cfg0.N = wArr V c :=
  (dat0 V c).arrAt_eq_of_cover 2 (wArr V c) (fun t _ => flushed_eq V c t) cover

end Cert.KernelIdeal.DequantArray

end
-- ==== Proof.Matmul.lean ====
/-
  What the second kernel's body stores, entry by entry.  It loads 256 rows of activations (all 4096 columns), 1024
  rows of the weight matrix (all 4096 columns) and the 1024 matching bias entries, contracts the two blocks along their
  second axes into a zero accumulator and adds the bias row to every row:
  entry `(r, c)` of the stored 256 × 1024 block is `Σₖ x[r, k] · w[c, k] + bias[0, c]`.
  (Narrowing the activations' format is the identity on the extended reals; the whole-shape casts are the identity.)
-/
import proofs.«419232_j30691836297883_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Matmul

open Cert.KernelIdeal Cert.KernelIdeal.Gen
open Idealize.ShloMosaic Idealize.ShloMosaic.ValueIdx

/-- The left operand's index: row `r` of the output, column `k` of the contraction. -/
abbrev lrow (y : S256x1024.Idx) (k : Fin 4096) : S256x4096.Idx := fun a => match a with
  | ⟨0, _⟩ => ⟨(y 0).val, (y 0).isLt⟩
  | ⟨1, _⟩ => ⟨k.val, k.isLt⟩

/-- The right operand's index: row `c` (the output's column), column `k`. -/
abbrev rrow (y : S256x1024.Idx) (k : Fin 4096) : S1024x4096.Idx := fun a => match a with
  | ⟨0, _⟩ => ⟨(y 1).val, (y 1).isLt⟩
  | ⟨1, _⟩ => ⟨k.val, k.isLt⟩

/-- The bias row's index: `(0, c)`. -/
abbrev brow (y : S256x1024.Idx) : S1x1024.Idx := fun a => match a with
  | ⟨0, _⟩ => ⟨0, Nat.one_pos⟩
  | ⟨1, _⟩ => ⟨(y 1).val, (y 1).isLt⟩

theorem lhs_0 (i : S256x1024.Idx) (q : dot_S256x4096_S1024x4096_S256x1024_1_1_0_0_n_n.contr.Idx) :
    (dot_S256x4096_S1024x4096_S256x1024_1_1_0_0_n_n.lhsIdx i q 0).val = (i 0).val := by
  unfold DotDims.lhsIdx
  rw [dif_neg (show ¬(0 : Fin S256x4096.rank) ∈ dot_S256x4096_S1024x4096_S256x1024_1_1_0_0_n_n.lhsBatch by decide), dif_pos (show (0 : Fin S256x4096.rank) ∈ dot_S256x4096_S1024x4096_S256x1024_1_1_0_0_n_n.lhsNonContracting by decide)]
  rfl
theorem lhs_1 (i : S256x1024.Idx) (q : dot_S256x4096_S1024x4096_S256x1024_1_1_0_0_n_n.contr.Idx) :
    (dot_S256x4096_S1024x4096_S256x1024_1_1_0_0_n_n.lhsIdx i q 1).val = (q ⟨0, by decide⟩).val :=
  dot_S256x4096_S1024x4096_S256x1024_1_1_0_0_n_n.lhsIdx_val_of_single rfl i q
theorem rhs_0 (i : S256x1024.Idx) (q : dot_S256x4096_S1024x4096_S256x1024_1_1_0_0_n_n.contr.Idx) :
    (dot_S256x4096_S1024x4096_S256x1024_1_1_0_0_n_n.rhsIdx i q 0).val = (i 1).val := by
  unfold DotDims.rhsIdx
  rw [dif_neg (show ¬(0 : Fin S1024x4096.rank) ∈ dot_S256x4096_S1024x4096_S256x1024_1_1_0_0_n_n.rhsBatch by decide), dif_pos (show (0 : Fin S1024x4096.rank) ∈ dot_S256x4096_S1024x4096_S256x1024_1_1_0_0_n_n.rhsNonContracting by decide)]
  rfl
theorem rhs_1 (i : S256x1024.Idx) (q : dot_S256x4096_S1024x4096_S256x1024_1_1_0_0_n_n.contr.Idx) :
    (dot_S256x4096_S1024x4096_S256x1024_1_1_0_0_n_n.rhsIdx i q 1).val = (q ⟨0, by decide⟩).val :=
  dot_S256x4096_S1024x4096_S256x1024_1_1_0_0_n_n.rhsIdx_val_of_single rfl i q

/-- The contraction into the zero accumulator, at an entry: the plain sum over the shared axis. -/
theorem contract_apply (x : FVec Ideal S256x4096 .bf16) (w : FVec Ideal S1024x4096 .bf16) (y : S256x1024.Idx) :
    FloatOps.matmul dot_S256x4096_S1024x4096_S256x1024_1_1_0_0_n_n none x w (constant S256x1024 .f32 0x00000000#32) y
      = ∑ k : Fin 4096, x (lrow y k) * w (rrow y k) := by
  rw [Ideal.matmul_constant_zero_apply, ← Equiv.sum_comp (ValueIdx.contrEquiv1 dot_S256x4096_S1024x4096_S256x1024_1_1_0_0_n_n 4096 rfl rfl).symm]
  refine Finset.sum_congr rfl fun k _ => ?_
  have hk := ValueIdx.contrEquiv1_symm_val dot_S256x4096_S1024x4096_S256x1024_1_1_0_0_n_n 4096 rfl rfl k
  have el : dot_S256x4096_S1024x4096_S256x1024_1_1_0_0_n_n.lhsIdx y ((ValueIdx.contrEquiv1 dot_S256x4096_S1024x4096_S256x1024_1_1_0_0_n_n 4096 rfl rfl).symm k) = lrow y k := funext fun a => Fin.ext (by
    match a with
    | ⟨0, _⟩ => exact lhs_0 _ _
    | ⟨1, _⟩ => exact (lhs_1 _ _).trans hk)
  have er : dot_S256x4096_S1024x4096_S256x1024_1_1_0_0_n_n.rhsIdx y ((ValueIdx.contrEquiv1 dot_S256x4096_S1024x4096_S256x1024_1_1_0_0_n_n 4096 rfl rfl).symm k) = rrow y k := funext fun a => Fin.ext (by
    match a with
    | ⟨0, _⟩ => exact rhs_0 _ _
    | ⟨1, _⟩ => exact (rhs_1 _ _).trans hk)
  rw [el, er]

/-- The bias row broadcast down the rows, at an entry. -/
theorem bias_apply (b : Vec Ideal S1x1024 .f32) (y : S256x1024.Idx) :
    broadcastTo S256x1024 b broadcasts_S1x1024_S256x1024 y = b (brow y) := by
  refine broadcastTo_apply b _ y (brow y) fun a => ?_
  match a with
  | ⟨0, _⟩ => show (0 : Nat) = if (1 : Nat) = 1 then 0 else (y 0).val; rw [if_pos rfl]
  | ⟨1, _⟩ => show (y 1).val = if (1024 : Nat) = 1 then 0 else (y 1).val; rw [if_neg (by decide)]

/-- THE STORED BLOCK: `Σₖ x[r, k] · w[c, k] + bias[0, c]`. -/
theorem pay_apply (x : Vec Ideal S256x4096 .f32) (w : Vec Ideal S1024x4096 .bf16) (b : Vec Ideal S1x1024 .f32) (y : S256x1024.Idx) :
    k1_pay1 (F := Ideal) x w b y = (∑ k : Fin 4096, x (lrow y k) * w (rrow y k)) + b (brow y) := by
  unfold k1_pay1
  show FloatOps.addf (F := Ideal) (φ := .f32)
      (FloatOps.matmul (F := Ideal) dot_S256x4096_S1024x4096_S256x1024_1_1_0_0_n_n none (truncf .bf16 (shapeCast S256x4096 x shapeCasts_S256x4096_S256x4096) bitsLt_bf16_f32)
        (shapeCast S1024x4096 w shapeCasts_S1024x4096_S1024x4096) (constant S256x1024 .f32 0x00000000#32) y)
      (broadcastTo S256x1024 (shapeCast S1x1024 b shapeCasts_S1x1024_S1x1024) broadcasts_S1x1024_S256x1024 y) = _
  rw [contract_apply, shapeCast_self, shapeCast_self, shapeCast_self, bias_apply]
  rfl

end Cert.KernelIdeal.Matmul

end
-- ==== Proof.MatmulArray.lean ====
/-
  The second kernel's output array after its 64 × 4 grid points.  Point `t` = (row tile `t / 4`, column tile `t % 4`)
  loads rows `256 (t / 4) …` of the activations, rows `1024 (t % 4) …` of the weight matrix and bias entries
  `1024 (t % 4) …`, and writes back the 256 × 1024 block at (row tile, column tile) of the output.  What it writes is the
  restriction of ONE whole-array function of the arrays the region is entered with:
  `y[r, o] = Σₖ x[r, k] · w[o, k] + bias[0, o]`.  Entry `(r, o)` lies in the block of point `4 (r / 256) + o / 1024`, so
  the blocks cover the array.
-/
import proofs.«419232_j30691836297883_2_alg».proof.Proof.Gen.KernelIdeal.Frame
import proofs.«419232_j30691836297883_2_alg».proof.Proof.Matmul
import Idealize.ShloMosaic.Lib.Pipeline.Value

set_option maxRecDepth 16384

noncomputable section

open scoped BigOperators

namespace Cert.KernelIdeal.MatmulArray

open Cert.KernelIdeal Cert.KernelIdeal.Gen Cert.KernelIdeal.Matmul
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row `r` of the activations at column `k`. -/
abbrev xrow (i : S16384x4096.Idx) (k : Fin 4096) : S16384x4096.Idx := fun a => match a with
  | ⟨0, _⟩ => ⟨(i 0).val, (i 0).isLt⟩
  | ⟨1, _⟩ => ⟨k.val, k.isLt⟩

/-- Row `o` of the weight matrix at column `k`. -/
abbrev wrow (i : S16384x4096.Idx) (k : Fin 4096) : S4096x4096.Idx := fun a => match a with
  | ⟨0, _⟩ => ⟨(i 1).val, (i 1).isLt⟩
  | ⟨1, _⟩ => ⟨k.val, k.isLt⟩

/-- Entry `o` of the bias row. -/
abbrev bcol (i : S16384x4096.Idx) : S1x4096.Idx := fun a => match a with
  | ⟨0, _⟩ => ⟨0, Nat.one_pos⟩
  | ⟨1, _⟩ => ⟨(i 1).val, (i 1).isLt⟩

/-- The whole product: `y[r, o] = Σₖ x[r, k] · w[o, k] + bias[0, o]`. -/
def yMat (x : S16384x4096.Idx → Ideal .f32) (w : S4096x4096.Idx → Ideal .bf16) (b : S1x4096.Idx → Ideal .f32) :
    S16384x4096.Idx → Ideal .f32 :=
  fun i => (∑ k : Fin 4096, x (xrow i k) * w (wrow i k)) + b (bcol i)

/-- The printed index maps over the grid: row tile `t / 4`, column tile `t % 4`. -/
theorem idx_facts : ∀ t : Fin cfg1.N, win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = 0 ∧ win1_2.index t (1 : Fin 2) = t.val % 4
    ∧ win1_3.index t (0 : Fin 2) = t.val / 4 ∧ win1_3.index t (1 : Fin 2) = t.val % 4 :=
  (by decide +kernel : ∀ t : Fin grid1.N, _)

/-- The product array the region computes from its entry contents. -/
abbrev yArr (c : Dev nD) : S16384x4096.Idx → Elt Ideal .f32 :=
  yMat (V c main_v2) (V c main_v1) (V c main_v3)

/-- WHAT POINT `t` WRITES BACK is block `t` of the product array. -/
theorem flushed_eq (c : Dev nD) (t : Fin cfg1.N) :
    (dat1 V c).flushed 3 t = ((cfg1.win 3).blk t).view.read (Elt Ideal) (yArr V c) := by
  show (cfg1.win 3).cut (grid1.coords t) ((dat1 V c).after 3 t) = _
  rw [after1_3]
  unfold out1_3
  rw [View.canon_unit_zero hz]
  simp only [View.ld_unit_zero (S := S256x4096) hz, View.ld_unit_zero (S := S1024x4096) hz, View.ld_unit_zero (S := S1x1024) hz]
  obtain ⟨e00, e01, e10, e11, e20, e21, e30, e31⟩ := idx_facts t
  funext y
  show k1_pay1 (F := Ideal) (iblk1 V c 0 t) (iblk1 V c 1 t) (iblk1 V c 2 t) y
    = yMat (V c main_v2) (V c main_v1) (V c main_v3) (((cfg1.win 3).blk t).view.emb y)
  refine (Matmul.pay_apply (iblk1 V c 0 t) (iblk1 V c 1 t) (iblk1 V c 2 t) y).trans ?_
  have h0 : (y 0).val < 256 := (y 0).isLt
  have h1 : (y 1).val < 1024 := (y 1).isLt
  have hx : ∀ k : Fin 4096, (iblk1 V c 0 t : Vec Ideal S256x4096 .f32) (lrow y k)
      = V c main_v2 (xrow (((cfg1.win 3).blk t).view.emb y) k) := fun k => by
    show V c main_v2 (((cfg1.win 0).blk t).view.emb (lrow y k)) = V c main_v2 (xrow (((cfg1.win 3).blk t).view.emb y) k)
    refine congrArg (V c main_v2) (funext fun a => Fin.ext ?_)
    match a with
    | ⟨0, _⟩ => show win1_0.index t (0 : Fin 2) * 256 + 1 * (y 0).val = win1_3.index t (0 : Fin 2) * 256 + 1 * (y 0).val; omega
    | ⟨1, _⟩ => show win1_0.index t (1 : Fin 2) * 4096 + 1 * k.val = k.val; omega
  have hw : ∀ k : Fin 4096, (iblk1 V c 1 t : Vec Ideal S1024x4096 .bf16) (rrow y k)
      = V c main_v1 (wrow (((cfg1.win 3).blk t).view.emb y) k) := fun k => by
    show V c main_v1 (((cfg1.win 1).blk t).view.emb (rrow y k)) = V c main_v1 (wrow (((cfg1.win 3).blk t).view.emb y) k)
    refine congrArg (V c main_v1) (funext fun a => Fin.ext ?_)
    match a with
    | ⟨0, _⟩ => show win1_1.index t (0 : Fin 2) * 1024 + 1 * (y 1).val = win1_3.index t (1 : Fin 2) * 1024 + 1 * (y 1).val; omega
    | ⟨1, _⟩ => show win1_1.index t (1 : Fin 2) * 4096 + 1 * k.val = k.val; omega
  have hb : (iblk1 V c 2 t : Vec Ideal S1x1024 .f32) (brow y) = V c main_v3 (bcol (((cfg1.win 3).blk t).view.emb y)) := by
    show V c main_v3 (((cfg1.win 2).blk t).view.emb (brow y)) = V c main_v3 (bcol (((cfg1.win 3).blk t).view.emb y))
    refine congrArg (V c main_v3) (funext fun a => Fin.ext ?_)
    match a with
    | ⟨0, _⟩ => show win1_2.index t (0 : Fin 2) * 1 + 1 * 0 = 0; omega
    | ⟨1, _⟩ => show win1_2.index t (1 : Fin 2) * 1024 + 1 * (y 1).val = win1_3.index t (1 : Fin 2) * 1024 + 1 * (y 1).val; omega
  unfold yMat
  rw [hb]
  exact congrArg (· + _) (Finset.sum_congr rfl fun k _ => by rw [hx k, hw k])

/-- An index of the array is in point `t`'s block iff each coordinate is in the block's range on its axis. -/
theorem mem_blk (t : Fin cfg1.N) (i : S16384x4096.Idx) :
    i ∈ ((cfg1.win 3).blk t).view.set ↔ ∀ a : Fin 2, win1_3.index t a * S256x1024.size a ≤ (i a).val ∧ (i a).val < win1_3.index t a * S256x1024.size a + S256x1024.size a := by
  show i ∈ ((View.whole main_v4).slice (win1_3.rect t)).set ↔ _
  rw [View.set_slice_whole, Rect.mem_set_unit]
  exact Iff.rfl

/-- Every entry is in the block of the point its row tile and column tile name. -/
theorem cover (i : S16384x4096.Idx) : ∃ t : Fin cfg1.N, (cfg1.win 3).flush t = true ∧ i ∈ ((cfg1.win 3).blk t).view.set := by
  have h0 : (i 0).val < 16384 := (i 0).isLt
  have h1 : (i 1).val < 4096 := (i 1).isLt
  have hN : cfg1.N = 256 := N_1
  let t : Fin cfg1.N := ⟨4 * ((i 0).val / 256) + (i 1).val / 1024, by rw [hN]; omega⟩
  obtain ⟨-, -, -, -, -, -, e30, e31⟩ := idx_facts t
  have ht : t.val = 4 * ((i 0).val / 256) + (i 1).val / 1024 := rfl
  refine ⟨t, flush1_3 t, ?_⟩
  rw [mem_blk]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 1024 ≤ (i 1).val ∧ (i 1).val < win1_3.index t (1 : Fin 2) * 1024 + 1024; omega

/-- THE ARRAY after the region: the product of the arrays it was entered with. -/
theorem final (c : Dev nD) : (dat1 V c).arrAt 3 cfg1.N = yArr V c :=
  (dat1 V c).arrAt_eq_of_cover 3 (yArr V c) (fun t _ => flushed_eq V c t) cover

end Cert.KernelIdeal.MatmulArray

end
-- ==== Proof.KernelValue.lean ====
/-
  The kernel program's result as one function of its arguments.  The first region leaves the dequantised weights
  (131072 × 128); the host reads them row-major as the 4096 × 4096 matrix, flattens the activations to 16384 × 4096 and
  views the bias as a row; the second region leaves `Σₖ x[r, k] · w[o, k] + bias[0, o]`; the host reads that back as
  8 × 2048 × 4096.  Row `r = b · 2048 + s` of the flattened activations is `(b, s)` of the argument, and entry `(o, k)` of
  the matrix is entry `o · 4096 + k` of the weights read row-major: the result is `Cert.Spec.result` of the four
  argument arrays as launched.
-/
import proofs.«419232_j30691836297883_2_alg».proof.Proof.KernelRun
import proofs.«419232_j30691836297883_2_alg».proof.Proof.DequantArray
import proofs.«419232_j30691836297883_2_alg».proof.Proof.MatmulArray
import Idealize.ShloMosaic.Lib.StableHlo.Run

set_option maxRecDepth 16384

noncomputable section

open scoped BigOperators

namespace Cert.KernelIdeal.KernelValue

open Cert.KernelIdeal Cert.KernelIdeal.Gen Cert.Spec Cert.KernelIdeal.MatmulArray
open Idealize.ShloMosaic Idealize.ShloMosaic.TcCoe Idealize.SL.Sem Idealize.ShloMosaic.ValueIdx Idealize.ShloMosaic.StableHlo

variable {α : Type}

/-- Entry `(b, s, o)` of the result sits at `(b · 2048 + s, o)` of the flattened product. -/
abbrev flat (i : S8x2048x4096.Idx) : S16384x4096.Idx := fun a => match a with
  | ⟨0, _⟩ => ⟨(i 0).val * 2048 + (i 1).val, by have h0 : (i 0).val < 8 := (i 0).isLt; have h1 : (i 1).val < 2048 := (i 1).isLt; show (i 0).val * 2048 + (i 1).val < 16384; omega⟩
  | ⟨1, _⟩ => ⟨(i 2).val, (i 2).isLt⟩

/-- The flattened activations at row `b · 2048 + s`. -/
theorem x_apply (x : S8x2048x4096.Idx → α) (i : S8x2048x4096.Idx) (k : Fin 4096) :
    shapeCast S16384x4096 x shapeCasts_S8x2048x4096_S16384x4096 (xrow (flat i) k)
      = x (ix3 ⟨(i 0).val, (i 0).isLt⟩ ⟨(i 1).val, (i 1).isLt⟩ k) := by
  refine shapeCast_apply x _ _ _ ?_
  rw [Shape.rowMajor_val_three, Shape.rowMajor_val_two]
  show ((i 0).val * 2048 + (i 1).val) * 4096 + k.val = ((i 0).val * 2048 + (i 1).val) * 4096 + k.val
  rfl

/-- The weights read row-major as the matrix, at `(o, k)`. -/
theorem w_apply (w : S131072x128.Idx → α) (i : S8x2048x4096.Idx) (k : Fin 4096) :
    shapeCast S4096x4096 w shapeCasts_S131072x128_S4096x4096 (wrow (flat i) k) = w (matIdx ⟨(i 2).val, (i 2).isLt⟩ k) := by
  refine shapeCast_apply w _ _ _ ?_
  rw [Shape.rowMajor_val_two, Shape.rowMajor_val_two]
  have h2 : (i 2).val < 4096 := (i 2).isLt
  have hk : k.val < 4096 := k.isLt
  show ((i 2).val * 4096 + k.val) / 128 * 128 + ((i 2).val * 4096 + k.val) % 128 = (i 2).val * 4096 + k.val
  omega

/-- The bias viewed as a row, at `(0, o)`. -/
theorem b_apply (b : S4096.Idx → α) (i : S8x2048x4096.Idx) :
    shapeCast S1x4096 b shapeCasts_S4096_S1x4096 (bcol (flat i)) = b (ix1 ⟨(i 2).val, (i 2).isLt⟩) := by
  refine shapeCast_apply b _ _ _ ?_
  rw [Shape.rowMajor_val_one, Shape.rowMajor_val_two]
  show (i 2).val = 0 * 4096 + (i 2).val
  omega

variable (m : (ℓ : Loc nD τ sig) → Buf (Elt Ideal) ℓ) (ρ : Dev nD → PrngReg)

/-- The second region's weight matrix: the first region's output read row-major. -/
theorem entry_w (c : Dev nD) : V2 m ρ c main_v1
    = shapeCast S4096x4096 (weights (R := 131072) (m ((c : Thread nD τ).loc main_arg1)) (m ((c : Thread nD τ).loc main_arg2))) shapeCasts_S131072x128_S4096x4096 := by
  show StableHlo.after hostOps1 (W1 m ρ c) (Proc.devRef .tc main_v1) = _
  after_results
  rw [show W1 m ρ c (Proc.devRef .tc main_v0) = _ from (W1_arr m ρ c 2).trans (DequantArray.final (V0 m ρ) c)]
  rfl

/-- Its activations: the argument flattened. -/
theorem entry_x (c : Dev nD) : V2 m ρ c main_v2
    = shapeCast S16384x4096 (m ((c : Thread nD τ).loc main_arg0)) shapeCasts_S8x2048x4096_S16384x4096 := by
  show StableHlo.after hostOps1 (W1 m ρ c) (Proc.devRef .tc main_v2) = _
  after_results
  rw [show W1 m ρ c (Proc.devRef .tc main_arg0) = _ from W1_of_ne m ρ c main_arg0 (by decide)]
  rfl

/-- Its bias row: the argument viewed as a row. -/
theorem entry_b (c : Dev nD) : V2 m ρ c main_v3
    = shapeCast S1x4096 (m ((c : Thread nD τ).loc main_arg3)) shapeCasts_S4096_S1x4096 := by
  show StableHlo.after hostOps1 (W1 m ρ c) (Proc.devRef .tc main_v3) = _
  after_results
  rw [show W1 m ρ c (Proc.devRef .tc main_arg3) = _ from W1_of_ne m ρ c main_arg3 (by decide)]
  rfl

/-- THE RESULT BUFFER at the last boundary: `Cert.Spec.result` of the arguments as launched. -/
theorem result_eq (c : Dev nD) : W4 m ρ c (Proc.devRef .tc main_v5)
    = result (m ((c : Thread nD τ).loc main_arg0)) (m ((c : Thread nD τ).loc main_arg1)) (m ((c : Thread nD τ).loc main_arg2))
        (m ((c : Thread nD τ).loc main_arg3)) := by
  show StableHlo.after hostOps2 (W3 m ρ c) (Proc.devRef .tc main_v5) = _
  after_results
  rw [show W3 m ρ c (Proc.devRef .tc main_v4) = _ from (W3_arr m ρ c 3).trans (MatmulArray.final (V2 m ρ) c)]
  funext i
  refine (shapeCast_apply _ shapeCasts_S16384x4096_S8x2048x4096 i (flat i) ?_).trans ?_
  · rw [Shape.rowMajor_val_two, Shape.rowMajor_val_three]
    show ((i 0).val * 2048 + (i 1).val) * 4096 + (i 2).val = ((i 0).val * 2048 + (i 1).val) * 4096 + (i 2).val
    rfl
  show yMat (V2 m ρ c main_v2) (V2 m ρ c main_v1) (V2 m ρ c main_v3) (flat i) = _
  rw [entry_x, entry_w, entry_b]
  unfold yMat result
  rw [b_apply]
  exact congrArg (· + _) (Finset.sum_congr rfl fun k _ => by rw [x_apply, w_apply])

/-- THE RUN, READ: every weakly fair execution of the kernel program terminates with the result buffer at
    `Cert.Spec.result` of the arguments and the arguments unchanged. -/
theorem run : θ_run defs (onTc (τ := τ) (main (F := Ideal))) ⟨m, fun _ => 0, ρ⟩ (fun r => ∀ c : Dev nD,
      r.2.mem ((c.tc : Thread nD τ).loc main_v5) = result (m ((c : Thread nD τ).loc main_arg0)) (m ((c : Thread nD τ).loc main_arg1))
          (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (Run.run_main m ρ)

end Cert.KernelIdeal.KernelValue

end
-- ==== Proof.RefValue.lean ====
/-
  The reference, index by index.  Its host program forms the four field arrays of every packed word, gives each a
  trailing unit axis, joins them and flattens: entry `(g, j)` of the unpacked integers is field `j % 4` of word
  `(g, j / 4)` (the shift by zero of the first field is the identity, and at 32 bits the host's arithmetic shift is
  the vector unit's).  Dequantised group by group this is `Cert.Spec.weights`; read row-major as a 4096 × 4096
  matrix and contracted with the activations along their last axis, plus the bias, it is `Cert.Spec.result`.
-/
import proofs.«419232_j30691836297883_2_alg».proof.Proof.Gen.ReferenceIdeal.Run
import proofs.«419232_j30691836297883_2_alg».proof.Proof.Gen.ReferenceIdeal.Read
import proofs.«419232_j30691836297883_2_alg».proof.Proof.Unpack

noncomputable section

open scoped BigOperators

namespace Cert.ReferenceIdeal.RefValue

open Cert.ReferenceIdeal Cert.ReferenceIdeal.Gen Cert.ReferenceIdeal.Read Cert.Spec
open Idealize.ShloMosaic Idealize.ShloMosaic.ValueIdx

/-- The four field arrays the host computes from the packed words. -/
abbrev fieldArr (x1 : (⟨S131072x32, .i32⟩ : BufTy).Contents (Elt Ideal)) : Fin 4 → IVec S131072x32 32
  | ⟨0, _⟩ => val_main_v3 (F := Ideal) x1
  | ⟨1, _⟩ => val_main_v7 (F := Ideal) x1
  | ⟨2, _⟩ => val_main_v11 (F := Ideal) x1
  | ⟨3, _⟩ => val_main_v15 (F := Ideal) x1

/-- Each is the corresponding field of every word. -/
theorem fieldArr_apply (x1 : (⟨S131072x32, .i32⟩ : BufTy).Contents (Elt Ideal)) (k : Fin 4) (w : S131072x32.Idx) :
    fieldArr x1 k w = field (x1 w) k := by
  match k with
  | ⟨0, _⟩ =>
    show val_main_v3 (F := Ideal) x1 w = _
    rw [val_main_v3_apply, val_main_v1_apply, val_main_v0_apply, val_main_c_apply, val_main_v2_apply, val_main_c_0_apply,
      shrsi_host_zero]
    rfl
  | ⟨1, _⟩ =>
    show val_main_v7 (F := Ideal) x1 w = _
    rw [val_main_v7_apply, val_main_v5_apply, val_main_v4_apply, val_main_c_1_apply, val_main_v6_apply, val_main_c_2_apply,
      shrsi_host]
    rfl
  | ⟨2, _⟩ =>
    show val_main_v11 (F := Ideal) x1 w = _
    rw [val_main_v11_apply, val_main_v9_apply, val_main_v8_apply, val_main_c_3_apply, val_main_v10_apply, val_main_c_4_apply,
      shrsi_host]
    rfl
  | ⟨3, _⟩ =>
    show val_main_v15 (F := Ideal) x1 w = _
    rw [val_main_v15_apply, val_main_v13_apply, val_main_v12_apply, val_main_c_5_apply, val_main_v14_apply, val_main_c_6_apply,
      shrsi_host]
    rfl

/-- The same four with the trailing unit axis. -/
abbrev pieceArr (x1 : (⟨S131072x32, .i32⟩ : BufTy).Contents (Elt Ideal)) : Fin 4 → IVec S131072x32x1 32
  | ⟨0, _⟩ => val_main_v16 (F := Ideal) x1
  | ⟨1, _⟩ => val_main_v17 (F := Ideal) x1
  | ⟨2, _⟩ => val_main_v18 (F := Ideal) x1
  | ⟨3, _⟩ => val_main_v19 (F := Ideal) x1

/-- A piece at `(g, j / 4, 0)` is its field array at `(g, j / 4)`. -/
theorem pieceArr_apply (x1 : (⟨S131072x32, .i32⟩ : BufTy).Contents (Elt Ideal)) (k : Fin 4) (y : S131072x128.Idx) :
    pieceArr x1 k (pieceIdx y) = fieldArr x1 k (wordIdx y) := by
  have e16 : idx_main_v16 (pieceIdx y) = wordIdx y := funext fun a => by
    match a with
    | ⟨0, _⟩ => rfl
    | ⟨1, _⟩ => rfl
  match k with
  | ⟨0, _⟩ => exact (val_main_v16_apply x1 (pieceIdx y)).trans (congrArg (val_main_v3 (F := Ideal) x1) e16)
  | ⟨1, _⟩ => exact (val_main_v17_apply x1 (pieceIdx y)).trans (congrArg (val_main_v7 (F := Ideal) x1) e16)
  | ⟨2, _⟩ => exact (val_main_v18_apply x1 (pieceIdx y)).trans (congrArg (val_main_v11 (F := Ideal) x1) e16)
  | ⟨3, _⟩ => exact (val_main_v19_apply x1 (pieceIdx y)).trans (congrArg (val_main_v15 (F := Ideal) x1) e16)

/-- The unpacked integers at an entry: field `j % 4` of word `(g, j / 4)`. -/
theorem unpacked_apply (x1 : (⟨S131072x32, .i32⟩ : BufTy).Contents (Elt Ideal)) (y : S131072x128.Idx) :
    val_main_v21 (F := Ideal) x1 y = field (x1 (wordIdx y)) (fieldIdx y) := by
  unfold val_main_v21 val_main_v20
  exact (unpack_apply (R := 131072) (fieldArr x1) (pieceArr x1) (pieceArr_apply x1) _ _ y).trans (fieldArr_apply x1 _ _)

/-- THE DEQUANTISED WEIGHTS of the reference are `Cert.Spec.weights` of the packed words and the scales. -/
theorem weights_eq (x1 : (⟨S131072x32, .i32⟩ : BufTy).Contents (Elt Ideal)) (x2 : (⟨S131072x1, .f32⟩ : BufTy).Contents (Elt Ideal))
    (y : S131072x128.Idx) : val_main_v28 (F := Ideal) x1 x2 y = weights (R := 131072) x1 x2 y := by
  have e25 : idx_main_v25 y = scaleIdx y := funext fun a => by
    match a with
    | ⟨0, _⟩ => rfl
    | ⟨1, _⟩ => rfl
  have e27 : idx_main_v27 y = scaleIdx y := funext fun a => by
    match a with
    | ⟨0, _⟩ => rfl
    | ⟨1, _⟩ => rfl
  rw [val_main_v28_apply, val_main_v26_apply, val_main_v24_apply, val_main_v22_apply, val_main_v23_apply, val_main_cst_apply,
    val_main_v25_apply, val_main_v27_apply, unpacked_apply, e25, e27]
  rfl

/-- THE RESULT of the reference is `Cert.Spec.result` of the four arguments. -/
theorem result_eq (x0 : (⟨S8x2048x4096, .f32⟩ : BufTy).Contents (Elt Ideal)) (x1 : (⟨S131072x32, .i32⟩ : BufTy).Contents (Elt Ideal))
    (x2 : (⟨S131072x1, .f32⟩ : BufTy).Contents (Elt Ideal)) (x3 : (⟨S4096, .f32⟩ : BufTy).Contents (Elt Ideal)) :
    val_main_v33 (F := Ideal) x0 x1 x2 x3 = result x0 x1 x2 x3 := by
  funext i
  rw [val_main_v33_apply, val_main_v30_apply, val_main_v32_apply, val_main_v31_apply]
  unfold result
  have eb : idx_main_v31 (idx_main_v32 i) = ix1 ⟨(i 2).val, (i 2).isLt⟩ := funext fun a => by
    match a with
    | ⟨0, _⟩ => rfl
  rw [eb]
  refine congrArg (· + x3 (ix1 ⟨(i 2).val, (i 2).isLt⟩)) (Finset.sum_congr rfl fun k _ => ?_)
  have el : lidx_main_v30 i k = ix3 ⟨(i 0).val, (i 0).isLt⟩ ⟨(i 1).val, (i 1).isLt⟩ k := funext fun a => by
    match a with
    | ⟨0, _⟩ => rfl
    | ⟨1, _⟩ => rfl
    | ⟨2, _⟩ => rfl
  have er : idx_main_v29 (ridx_main_v30 i k) = matIdx ⟨(i 2).val, (i 2).isLt⟩ k := funext fun a => by
    match a with
    | ⟨0, _⟩ => rfl
    | ⟨1, _⟩ => rfl
  rw [val_main_v29_apply, weights_eq, el, er]
  rfl

end Cert.ReferenceIdeal.RefValue

end
-- ==== Proof.lean ====
/-
  A linear layer over 2-bit packed weights, against its plain reference, on the extended reals.

  Both programs unpack each 32-bit word into four 2-bit fields (field `k` is `(q >>ₛ 2k) & 3`), read a field as a
  signed integer `u` and dequantise it with its group's scale `n` as `u · c · n − n`, with `c` the same f32 word (the one
  nearest 2/3) on both sides; the 131072 × 128 weights, read row-major as a 4096 × 4096 matrix `w`, are contracted with the
  activations, `y[b, s, o] = Σₖ x[b, s, k] · w[o, k] + bias[o]`.  The kernel program does this in two tiled passes (the
  dequantisation 128 groups at a time, the product in 256 × 1024 tiles over the flattened activations, narrowing formats on
  the way, which is the identity here); the reference in one host program.  Each side's result is shown to be the one
  function `Cert.Spec.result` of the four argument arrays, index by index; no law beyond reading both sums over the same
  index set is needed, so the finiteness of the inputs is never used.

  The three frames are the generated ones (the reference's is its generated run with the result dropped); the ideal pass
  rewrote nothing, so `preserves` is trivial.
-/
import proofs.«419232_j30691836297883_2_alg».proof.Defs
import proofs.«419232_j30691836297883_2_alg».proof.Proof.Gen.Kernel
import proofs.«419232_j30691836297883_2_alg».proof.Proof.Gen.Kernel.Frame
import proofs.«419232_j30691836297883_2_alg».proof.Proof.Gen.KernelIdeal
import proofs.«419232_j30691836297883_2_alg».proof.Proof.Gen.KernelIdeal.Frame
import proofs.«419232_j30691836297883_2_alg».proof.Proof.Gen.ReferenceIdeal
import proofs.«419232_j30691836297883_2_alg».proof.Proof.Gen.ReferenceIdeal.Run
import proofs.«419232_j30691836297883_2_alg».proof.Proof.Gen.ReferenceIdeal.Read
import proofs.«419232_j30691836297883_2_alg».proof.Proof.Gen.Pre_finite_inputs
import proofs.«419232_j30691836297883_2_alg».proof.Proof.KernelValue
import proofs.«419232_j30691836297883_2_alg».proof.Proof.RefValue

noncomputable section

namespace Cert.Proof

open Idealize.ShloMosaic Idealize.ShloMosaic.TcCoe Idealize.SL.Sem

section Claims

variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs, run from memories that agree on the arguments, end with the result at `Cert.Spec.result` of those
    arguments: the kernel program by its run read through both regions, the reference by its generated run read stage by
    stage. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.result_eq,
    (hagree c).1, (hagree c).2.1, (hagree c).2.2.1, (hagree c).2.2.2]

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
